-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x64 : Shape := ⟨4, ![8, 8, 1024, 64]⟩
abbrev S8x8x1024x1024 : Shape := ⟨4, ![8, 8, 1024, 1024]⟩
abbrev S_ : Shape := ⟨0, ![]⟩

class Facts : Prop where
  bcast_S_S8x8x1024x64 : S_.BroadcastsInDim S8x8x1024x64 (![] : Fin 0 → Fin S8x8x1024x64.rank)
  reducesTo_S8x8x1024x64_S_d0_1_2_3 : S8x8x1024x64.ReducesTo [0, 1, 2, 3] S_
  h_S_ : 0 < S_.numel
  bcast_S_S8x8x1024x1024 : S_.BroadcastsInDim S8x8x1024x1024 (![] : Fin 0 → Fin S8x8x1024x1024.rank)
  reducesTo_S8x8x1024x1024_S_d0_1_2_3 : S8x8x1024x1024.ReducesTo [0, 1, 2, 3] S_

variable [Facts]

def fn {F : FTy → Type} [FloatOps F] (main_arg0 : FVec F S8x8x1024x64 .f32) (main_arg1 : FVec F S8x8x1024x64 .f32) (main_arg2 : FVec F S8x8x1024x1024 .f32) : IVec S_ 1 :=
  let main_v0 : FVec F S8x8x1024x64 .f32 := Host.absf main_arg0
  let main_cst : FVec F S_ .f32 := constant S_ .f32 0x7F800000#32
  let main_v1 : FVec F S8x8x1024x64 .f32 := broadcastInDim S8x8x1024x64 ![] bcast_S_S8x8x1024x64 main_cst
  let main_v2 : IVec S8x8x1024x64 1 := cmpf .olt main_v0 main_v1
  let main_c : IVec S_ 1 := constantI S_ 1 1#1
  let main_v3 : IVec S_ 1 := (fun x v => Host.reduce IntOp.andi x v reducesTo_S8x8x1024x64_S_d0_1_2_3 h_S_) main_v2 main_c
  let main_v4 : FVec F S8x8x1024x64 .f32 := Host.absf main_arg1
  let main_cst_0 : FVec F S_ .f32 := constant S_ .f32 0x7F800000#32
  let main_v5 : FVec F S8x8x1024x64 .f32 := broadcastInDim S8x8x1024x64 ![] bcast_S_S8x8x1024x64 main_cst_0
  let main_v6 : IVec S8x8x1024x64 1 := cmpf .olt main_v4 main_v5
  let main_c_1 : IVec S_ 1 := constantI S_ 1 1#1
  let main_v7 : IVec S_ 1 := (fun x v => Host.reduce IntOp.andi x v reducesTo_S8x8x1024x64_S_d0_1_2_3 h_S_) main_v6 main_c_1
  let main_v8 : IVec S_ 1 := andi main_v3 main_v7
  let main_v9 : FVec F S8x8x1024x1024 .f32 := Host.absf main_arg2
  let main_cst_2 : FVec F S_ .f32 := constant S_ .f32 0x7F800000#32
  let main_v10 : FVec F S8x8x1024x1024 .f32 := broadcastInDim S8x8x1024x1024 ![] bcast_S_S8x8x1024x1024 main_cst_2
  let main_v11 : IVec S8x8x1024x1024 1 := cmpf .olt main_v9 main_v10
  let main_c_3 : IVec S_ 1 := constantI S_ 1 1#1
  let main_v12 : IVec S_ 1 := (fun x v => Host.reduce IntOp.andi x v reducesTo_S8x8x1024x1024_S_d0_1_2_3 h_S_) main_v11 main_c_3
  let main_v13 : IVec S_ 1 := andi main_v8 main_v12
  main_v13
-- ==== Kernel.lean ====
abbrev S8x8x1024x64 : Shape := ⟨4, ![8, 8, 1024, 64]⟩
abbrev S8x8x1024x1024 : Shape := ⟨4, ![8, 8, 1024, 1024]⟩
abbrev S64x1024x64 : Shape := ⟨3, ![64, 1024, 64]⟩
abbrev S64x1024x1024 : Shape := ⟨3, ![64, 1024, 1024]⟩
abbrev S1x256x64 : Shape := ⟨3, ![1, 256, 64]⟩
abbrev S1x1024x64 : Shape := ⟨3, ![1, 1024, 64]⟩
abbrev S1x1024x1024 : Shape := ⟨3, ![1, 1024, 1024]⟩
abbrev S1x256x1024 : Shape := ⟨3, ![1, 256, 1024]⟩
abbrev S256x64 : Shape := ⟨2, ![256, 64]⟩
abbrev S1024x64 : Shape := ⟨2, ![1024, 64]⟩
abbrev S1024x1024 : Shape := ⟨2, ![1024, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x1024, .f32⟩
  | .hbm, ⟨3, _⟩ => ⟨S64x1024x64, .f32⟩
  | .hbm, ⟨4, _⟩ => ⟨S64x1024x64, .f32⟩
  | .hbm, ⟨5, _⟩ => ⟨S64x1024x1024, .f32⟩
  | .hbm, ⟨6, _⟩ => ⟨S64x1024x1024, .f32⟩
  | .hbm, ⟨7, _⟩ => ⟨S8x8x1024x1024, .f32⟩
  | .local _ .vmem, ⟨0, _⟩ => ⟨S1x256x64, .f32⟩
  | .local _ .vmem, ⟨1, _⟩ => ⟨S1x256x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1024, .f32⟩
  | .local _ .vmem, ⟨5, _⟩ => ⟨S1x1024x1024, .f32⟩
  | .local _ .vmem, ⟨6, _⟩ => ⟨S1x256x1024, .f32⟩
  | .local _ .vmem, ⟨7, _⟩ => ⟨S1x256x1024, .f32⟩
  | _, _ => ⟨S8x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x8x1024x64_S64x1024x64 : S8x8x1024x64.ShapeCasts S64x1024x64
  shapeCasts_S8x8x1024x1024_S64x1024x1024 : S8x8x1024x1024.ShapeCasts S64x1024x1024
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  shapeCasts_S64x1024x1024_S8x8x1024x1024 : S64x1024x1024.ShapeCasts S8x8x1024x1024
  dot_S256x64_S1024x64_S256x1024_1_1_0_0_n_n_wf : DotDims.WF S256x64 S1024x64 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S64x1024x64.size a
  hwx0_0 : ∀ i : grid0.Coords, EltTy.bits .f32 = 32 ∨ (Rect.block (s := S64x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x1024x1024.size a
  hwx0_3 : ∀ i : grid0.Coords, EltTy.bits .f32 = 32 ∨ (Rect.block (s := S64x1024x1024) S1x256x1024.size (cc0_transform_3 i) (hinb0_3 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x1024x64 : Shape := ⟨4, ![8, 8, 1024, 64]⟩
abbrev S8x8x1024x1024 : Shape := ⟨4, ![8, 8, 1024, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x8x1024x64, .f32⟩
  | .hbm, ⟨1, _⟩ => ⟨S8x8x1024x64, .f32⟩
  | .hbm, ⟨2, _⟩ => ⟨S8x8x1024x1024, .f32⟩
  | .hbm, ⟨3, _⟩ => ⟨S_, .f32⟩
  | .hbm, ⟨4, _⟩ => ⟨S_, .f32⟩
  | .hbm, ⟨5, _⟩ => ⟨S8x8x1024x64, .f32⟩
  | .hbm, ⟨6, _⟩ => ⟨S8x8x1024x64, .i1⟩
  | .hbm, ⟨7, _⟩ => ⟨S_, .f32⟩
  | .hbm, ⟨8, _⟩ => ⟨S8x8x1024x64, .f32⟩
  | .hbm, ⟨9, _⟩ => ⟨S8x8x1024x64, .i1⟩
  | .hbm, ⟨10, _⟩ => ⟨S_, .f32⟩
  | .hbm, ⟨11, _⟩ => ⟨S_, .f32⟩
  | .hbm, ⟨12, _⟩ => ⟨S8x8x1024x64, .f32⟩
  | .hbm, ⟨13, _⟩ => ⟨S8x8x1024x64, .f32⟩
  | .hbm, ⟨14, _⟩ => ⟨S8x8x1024x64, .f32⟩
  | .hbm, ⟨15, _⟩ => ⟨S_, .f32⟩
  | .hbm, ⟨16, _⟩ => ⟨S8x8x1024x64, .f32⟩
  | .hbm, ⟨17, _⟩ => ⟨S8x8x1024x64, .f32⟩
  | .hbm, ⟨18, _⟩ => ⟨S8x8x1024x64, .f32⟩
  | .hbm, ⟨19, _⟩ => ⟨S_, .f32⟩
  | .hbm, ⟨20, _⟩ => ⟨S8x8x1024x64, .f32⟩
  | .hbm, ⟨21, _⟩ => ⟨S8x8x1024x64, .f32⟩
  | .hbm, ⟨22, _⟩ => ⟨S_, .f32⟩
  | .hbm, ⟨23, _⟩ => ⟨S_, .f32⟩
  | .hbm, ⟨24, _⟩ => ⟨S8x8x1024x64, .f32⟩
  | .hbm, ⟨25, _⟩ => ⟨S8x8x1024x64, .i1⟩
  | .hbm, ⟨26, _⟩ => ⟨S_, .f32⟩
  | .hbm, ⟨27, _⟩ => ⟨S8x8x1024x64, .f32⟩
  | .hbm, ⟨28, _⟩ => ⟨S8x8x1024x64, .i1⟩
  | .hbm, ⟨29, _⟩ => ⟨S_, .f32⟩
  | .hbm, ⟨30, _⟩ => ⟨S_, .f32⟩
  | .hbm, ⟨31, _⟩ => ⟨S8x8x1024x64, .f32⟩
  | .hbm, ⟨32, _⟩ => ⟨S8x8x1024x64, .f32⟩
  | .hbm, ⟨33, _⟩ => ⟨S8x8x1024x64, .f32⟩
  | .hbm, ⟨34, _⟩ => ⟨S_, .f32⟩
  | .hbm, ⟨35, _⟩ => ⟨S8x8x1024x64, .f32⟩
  | .hbm, ⟨36, _⟩ => ⟨S8x8x1024x64, .f32⟩
  | .hbm, ⟨37, _⟩ => ⟨S8x8x1024x64, .f32⟩
  | .hbm, ⟨38, _⟩ => ⟨S_, .f32⟩
  | .hbm, ⟨39, _⟩ => ⟨S8x8x1024x64, .f32⟩
  | .hbm, ⟨40, _⟩ => ⟨S8x8x1024x64, .f32⟩
  | .hbm, ⟨41, _⟩ => ⟨S8x8x1024x1024, .f32⟩
  | .hbm, ⟨42, _⟩ => ⟨S8x8x1024x1024, .f32⟩
  | .hbm, ⟨43, _⟩ => ⟨S8x8x1024x1024, .f32⟩
  | _, _ => ⟨S8x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_v3 : Ref sig .tc := ⟨.hbm, 9, rfl⟩
abbrev main_call0_cst_1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_cst_0 : Ref sig .tc := ⟨.hbm, 26, rfl⟩
abbrev main_call1_v2 : Ref sig .tc := ⟨.hbm, 27, rfl⟩
abbrev main_call1_v3 : Ref sig .tc := ⟨.hbm, 28, rfl⟩
abbrev main_call1_cst_1 : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_v3 : Ref sig .tc := ⟨.hbm, 37, rfl⟩
abbrev main_cst_2 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩

abbrev nD : Nat := 1
abbrev τ : Topo := Topo.v7x

variable {F : FTy → Type} [FloatOps F]

class Facts₀ : Prop where
  bcast_S_S8x8x1024x64 : S_.BroadcastsInDim S8x8x1024x64 (![] : Fin 0 → Fin S8x8x1024x64.rank)
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x1024_S8x8x1024x1024_3_2_2_3_01_01_wf : DotDims.WF S8x8x1024x1024 S8x8x1024x1024 S8x8x1024x1024 [3] [2] [2] [3] [0, 1] [0, 1]

variable [Facts₀]

def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x1024_S8x8x1024x1024_3_2_2_3_01_01 : DotDims S8x8x1024x1024 S8x8x1024x1024 S8x8x1024x1024 where
  lhsContracting := [3]
  rhsContracting := [2]
  lhsNonContracting := [2]
  rhsNonContracting := [3]
  lhsBatch := [0, 1]
  rhsBatch := [0, 1]
  wf := dot_S8x8x1024x1024_S8x8x1024x1024_S8x8x1024x1024_3_2_2_3_01_01_wf

class Facts : Prop extends Facts₀ where

variable [Facts]
-- ==== Proof.Spec.lean ====
/-
  Linear attention with the feature map phi = ELU + 1, as one function of the argument arrays.

  For a batch b, a head h, query row n and column v (rows and columns both range over the 1024 positions):
    den (b,h,n,m) = sum over d < 64 of phi(Q[b,h,n,d]) * phi(K[b,h,m,d])
    num (b,h,n,v) = sum over m < 1024 of den(b,h,n,m) * V[b,h,m,v]
    out (b,h,n,v) = num(b,h,n,v) / den(b,h,n,v)
  on the extended reals, with phi(x) = x + 1 above zero and e^x at and below it.

  The same function is stated twice: over the arrays as given, [8, 8, 1024, *], and over the arrays with the batch
  and head axes merged row-major into one axis of 64 (g = 8 b + h).  The two agree through the row-major reshapes.
  Also here: the two spellings of phi that the programs print, each shown equal to phi at every extended real.
-/
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.FeatureAttention

open Idealize.ShloMosaic Idealize.ShloMosaic.ValueIdx

/-- Queries and keys as given: batch, head, position, feature. -/
abbrev Sqk4 : Shape := ⟨4, ![8, 8, 1024, 64]⟩
/-- Values and the result as given: batch, head, position, position. -/
abbrev Sv4 : Shape := ⟨4, ![8, 8, 1024, 1024]⟩
/-- Queries and keys with batch and head merged. -/
abbrev Sqk3 : Shape := ⟨3, ![64, 1024, 64]⟩
/-- Values and the result with batch and head merged. -/
abbrev Sv3 : Shape := ⟨3, ![64, 1024, 1024]⟩

/-! ## The feature map -/

/-- ELU(x) + 1 with unit slope: x + 1 above zero, e^x at and below zero (so phi is positive on the reals). -/
def phi (x : EReal) : EReal := if 0 < x then x + 1 else Ideal.exp x

/-- The first spelling: choose between x + 1 and e^x by the comparison x > 0. -/
theorem phi_of_select (x : EReal) :
    Scalar.select (Ideal.cmp .ogt x (Ideal.ofBits .f32 0x00000000#32)) (x + Ideal.ofBits .f32 0x3F800000#32) (Ideal.exp x)
      = phi x := by
  rw [Ideal.ofBits_zero_f32, Ideal.ofBits_one_f32]
  unfold phi Ideal.cmp Scalar.select
  by_cases h : (0 : EReal) < x <;> simp [h]

/-- For an argument that is not above zero, (e^x - 1) + 1 = e^x: e^x is then a real number (e^(-inf) = 0). -/
theorem exp_sub_one_add_one {x : EReal} (h : ¬ (0 : EReal) < x) : Ideal.exp x - 1 + 1 = Ideal.exp x := by
  induction x using EReal.rec with
  | bot =>
    rw [Ideal.exp_bot, zero_sub]
    have e : ((-1 : ℝ) : EReal) + ((1 : ℝ) : EReal) = ((0 : ℝ) : EReal) := by rw [← EReal.coe_add]; norm_num
    simpa using e
  | top => exact absurd (EReal.zero_lt_top) h
  | coe r =>
    rw [Ideal.exp_coe]
    norm_cast
    ring_nf

/-- The second spelling: ELU by its definition, x above zero and 1 * (e^y - 1) otherwise, where y is x clamped to zero
    above zero (so that the exponential is never taken of a large argument), and then one added. -/
theorem phi_of_elu (x : EReal) :
    Scalar.select (Ideal.cmp .ogt x (Ideal.ofBits .f32 0x00000000#32)) x
        (Ideal.ofBits .f32 0x3F800000#32
          * (Ideal.exp (Scalar.select (Ideal.cmp .ogt x (Ideal.ofBits .f32 0x00000000#32)) (Ideal.ofBits .f32 0x00000000#32) x) - 1))
      + Ideal.ofBits .f32 0x3F800000#32
      = phi x := by
  rw [Ideal.ofBits_zero_f32, Ideal.ofBits_one_f32]
  unfold phi Ideal.cmp Scalar.select
  by_cases h : (0 : EReal) < x
  · simp [h]
  · simp only [h, decide_false, BitVec.ofBool_false, if_neg (by decide : ¬ (0#1 : BitVec 1) = 1), one_mul]
    exact exp_sub_one_add_one h

/-! ## The function over merged batch and head -/

/-- The normaliser: the feature-map inner product of query row n with key row m. -/
def den3 (Q K : Sqk3.Idx → EReal) (g : Fin 64) (n m : Fin 1024) : EReal :=
  ∑ d : Fin 64, phi (Q (ix3 g n d)) * phi (K (ix3 g m d))

/-- The numerator: the normaliser's row n against column v of the values. -/
def num3 (Q K : Sqk3.Idx → EReal) (V : Sv3.Idx → EReal) (g : Fin 64) (n v : Fin 1024) : EReal :=
  ∑ m : Fin 1024, den3 Q K g n m * V (ix3 g m v)

/-- The quotient of the two at each (g, n, v). -/
def attn3 (Q K : Sqk3.Idx → EReal) (V : Sv3.Idx → EReal) : Sv3.Idx → EReal :=
  fun i => Ideal.div (num3 Q K V (i 0) (i 1) (i 2)) (den3 Q K (i 0) (i 1) (i 2))

theorem attn3_ix (Q K : Sqk3.Idx → EReal) (V : Sv3.Idx → EReal) (g : Fin 64) (n v : Fin 1024) :
    attn3 Q K V (ix3 g n v) = Ideal.div (num3 Q K V g n v) (den3 Q K g n v) := rfl

/-! ## The function over batch and head apart -/

def den4 (Q K : Sqk4.Idx → EReal) (b h : Fin 8) (n m : Fin 1024) : EReal :=
  ∑ d : Fin 64, phi (Q (ix4 b h n d)) * phi (K (ix4 b h m d))

def num4 (Q K : Sqk4.Idx → EReal) (V : Sv4.Idx → EReal) (b h : Fin 8) (n v : Fin 1024) : EReal :=
  ∑ m : Fin 1024, den4 Q K b h n m * V (ix4 b h m v)

def attn4 (Q K : Sqk4.Idx → EReal) (V : Sv4.Idx → EReal) : Sv4.Idx → EReal :=
  fun i => Ideal.div (num4 Q K V (i 0) (i 1) (i 2) (i 3)) (den4 Q K (i 0) (i 1) (i 2) (i 3))

theorem attn4_ix (Q K : Sqk4.Idx → EReal) (V : Sv4.Idx → EReal) (b h : Fin 8) (n v : Fin 1024) :
    attn4 Q K V (ix4 b h n v) = Ideal.div (num4 Q K V b h n v) (den4 Q K b h n v) := rfl

/-! ## The two agree through the row-major reshapes -/

/-- The merged index of batch b and head h. -/
def merge (b h : Fin 8) : Fin 64 := ⟨b.val * 8 + h.val, by have := b.isLt; have := h.isLt; omega⟩

/-- A [8, 8, 1024, 64] array reshaped to [64, 1024, 64], read at (8 b + h, n, d), is the array at (b, h, n, d). -/
theorem reshape_qk (X : Sqk4.Idx → EReal) (hc : Sqk4.ShapeCasts Sqk3) (b h : Fin 8) (n : Fin 1024) (d : Fin 64) :
    shapeCast Sqk3 X hc (ix3 (merge b h) n d) = X (ix4 b h n d) :=
  shapeCast_apply X hc _ _ (by
    rw [Shape.rowMajor_val_four, Shape.rowMajor_val_three]
    show ((b.val * 8 + h.val) * 1024 + n.val) * 64 + d.val = ((b.val * 8 + h.val) * 1024 + n.val) * 64 + d.val
    rfl)

/-- A [8, 8, 1024, 1024] array reshaped to [64, 1024, 1024], read at (8 b + h, m, v), is the array at (b, h, m, v). -/
theorem reshape_v (X : Sv4.Idx → EReal) (hc : Sv4.ShapeCasts Sv3) (b h : Fin 8) (m v : Fin 1024) :
    shapeCast Sv3 X hc (ix3 (merge b h) m v) = X (ix4 b h m v) :=
  shapeCast_apply X hc _ _ (by
    rw [Shape.rowMajor_val_four, Shape.rowMajor_val_three]
    show ((b.val * 8 + h.val) * 1024 + m.val) * 1024 + v.val = ((b.val * 8 + h.val) * 1024 + m.val) * 1024 + v.val
    rfl)

/-- A [64, 1024, 1024] array reshaped to [8, 8, 1024, 1024], read at (b, h, n, v), is the array at (8 b + h, n, v). -/
theorem reshape_out (Y : Sv3.Idx → EReal) (hc : Sv3.ShapeCasts Sv4) (b h : Fin 8) (n v : Fin 1024) :
    shapeCast Sv4 Y hc (ix4 b h n v) = Y (ix3 (merge b h) n v) :=
  shapeCast_apply Y hc _ _ (by
    rw [Shape.rowMajor_val_four, Shape.rowMajor_val_three]
    show ((b.val * 8 + h.val) * 1024 + n.val) * 1024 + v.val = ((b.val * 8 + h.val) * 1024 + n.val) * 1024 + v.val
    rfl)

/-- Merging batch and head, applying the merged function and splitting the axis again is the function itself. -/
theorem attn_reshape (Q K : Sqk4.Idx → EReal) (V : Sv4.Idx → EReal) (hq : Sqk4.ShapeCasts Sqk3) (hv : Sv4.ShapeCasts Sv3)
    (ho : Sv3.ShapeCasts Sv4) :
    shapeCast Sv4 (attn3 (shapeCast Sqk3 Q hq) (shapeCast Sqk3 K hq) (shapeCast Sv3 V hv)) ho = attn4 Q K V := by
  funext i
  obtain ⟨b, h, n, v, rfl⟩ : ∃ (b h : Fin 8) (n v : Fin 1024), i = ix4 b h n v := ⟨i 0, i 1, i 2, i 3, eq_ix4 i⟩
  rw [reshape_out, attn3_ix, attn4_ix]
  unfold num3 num4 den3 den4
  simp only [reshape_qk, reshape_v]

end Cert.FeatureAttention

end
-- ==== Proof.RefRun.lean ====
/-
  The reference program read back as a straight line of host operations, and what it leaves in its result.

  The program applies ELU (a function of its own, which in turn calls the two selections it is written with) to the
  queries and to the keys, adds one to each, contracts the two over the feature axis per batch and head, contracts the
  result with the values over the key position, and divides the second product by the first.  Unfolding the calls at
  their sites gives forty-one operations.  Every weakly fair execution runs them in order and ends with the result buffer
  at their composition applied to the argument arrays, which are left as they were.
-/
import proofs.«169671_j36060545417824_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded at their sites. -/
abbrev ops : List (HloOp τ sig (Elt F)) :=
  [ nullary main_cst (constant S_ .f32 0x3F800000#32),
    -- the feature map's ELU on main_arg0: zero, its splat, the comparison (twice: once for the clamp, once for the choice)
    TRef.nullary main_call0.cst (constant S_ .f32 0x00000000#32),
    TRef.unary main_call0.cst main_call0.v0 (broadcastInDim S8x8x1024x64 ![] bcast_S_S8x8x1024x64),
    TRef.binary (.of main_arg0) main_call0.v0 main_call0.v1 (cmpf .ogt),
    TRef.nullary main_call0.cst_0 (constant S_ .f32 0x00000000#32),
    TRef.unary main_call0.cst_0 main_call0.v2 (broadcastInDim S8x8x1024x64 ![] bcast_S_S8x8x1024x64),
    TRef.binary (.of main_arg0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8x8x1024x64 ![] bcast_S_S8x8x1024x64),
    TRef.ternary main_call0.v3 main_call0.call0.v1 (.of main_arg0) main_call0.call0.v2 select,
    TRef.unary main_call0.call0.v2 main_call0.v5 Host.expm1,
    TRef.unary (.of main_cst) main_call0.v6 id,
    TRef.unary main_call0.v6 main_call0.v7 (broadcastInDim S8x8x1024x64 ![] bcast_S_S8x8x1024x64),
    TRef.binary main_call0.v7 main_call0.v5 main_call0.v8 mulf,
    TRef.ternary main_call0.v1 (.of main_arg0) main_call0.v8 main_call0.call1.v0 select,
    nullary main_cst_0 (constant S_ .f32 0x3F800000#32),
    unary main_cst_0 main_v1 (broadcastInDim S8x8x1024x64 ![] bcast_S_S8x8x1024x64),
    binary main_v0 main_v1 main_v2 addf,
    nullary main_cst_1 (constant S_ .f32 0x3F800000#32),
    -- the feature map's ELU on main_arg1: zero, its splat, the comparison (twice: once for the clamp, once for the choice)
    TRef.nullary main_call1.cst (constant S_ .f32 0x00000000#32),
    TRef.unary main_call1.cst main_call1.v0 (broadcastInDim S8x8x1024x64 ![] bcast_S_S8x8x1024x64),
    TRef.binary (.of main_arg1) main_call1.v0 main_call1.v1 (cmpf .ogt),
    TRef.nullary main_call1.cst_0 (constant S_ .f32 0x00000000#32),
    TRef.unary main_call1.cst_0 main_call1.v2 (broadcastInDim S8x8x1024x64 ![] bcast_S_S8x8x1024x64),
    TRef.binary (.of main_arg1) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x8x1024x64 ![] bcast_S_S8x8x1024x64),
    TRef.ternary main_call1.v3 main_call1.call0.v1 (.of main_arg1) main_call1.call0.v2 select,
    TRef.unary main_call1.call0.v2 main_call1.v5 Host.expm1,
    TRef.unary (.of main_cst_1) main_call1.v6 id,
    TRef.unary main_call1.v6 main_call1.v7 (broadcastInDim S8x8x1024x64 ![] bcast_S_S8x8x1024x64),
    TRef.binary main_call1.v7 main_call1.v5 main_call1.v8 mulf,
    TRef.ternary main_call1.v1 (.of main_arg1) main_call1.v8 main_call1.call1.v0 select,
    nullary main_cst_2 (constant S_ .f32 0x3F800000#32),
    unary main_cst_2 main_v4 (broadcastInDim S8x8x1024x64 ![] bcast_S_S8x8x1024x64),
    binary main_v3 main_v4 main_v5 addf,
    binary main_v2 main_v5 main_v6 (fun l r => Host.dotGeneral dot_S8x8x1024x64_S8x8x1024x64_S8x8x1024x1024_3_3_2_2_01_01 none l r),
    binary main_v6 main_arg2 main_v7 (fun l r => Host.dotGeneral dot_S8x8x1024x1024_S8x8x1024x1024_S8x8x1024x1024_3_2_2_3_01_01 none l r),
    binary main_v7 main_v6 main_v8 Host.divf ]

set_option maxRecDepth 1024 in
/-- @main is that straight line: the functions unfolded at their calls, sequencing reassociated. -/
theorem main_eq (c : Dev nD) : main (F := F) c = seq ops := by
  simp only [main, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., unary_bufs_sub ..,
    unary_bufs_sub .., binary_bufs_sub .., ternary_bufs_sub ..,
    nullary_bufs_sub .., unary_bufs_sub .., binary_bufs_sub .., nullary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., unary_bufs_sub ..,
    unary_bufs_sub .., binary_bufs_sub .., ternary_bufs_sub ..,
    nullary_bufs_sub .., unary_bufs_sub .., binary_bufs_sub ..,
    binary_bufs_sub .., binary_bufs_sub .., binary_bufs_sub ..⟩

/-- ELU with slope `a` below zero, as the program spells it: the argument above zero, and otherwise `a` times
    `expm1` of the argument clamped to zero from above. -/
def elu (x : FVec F S8x8x1024x64 .f32) (a : FVec F S_ .f32) : FVec F S8x8x1024x64 .f32 :=
  select (cmpf .ogt x (broadcastInDim S8x8x1024x64 ![] bcast_S_S8x8x1024x64 (constant S_ .f32 0x00000000#32))) x
    (mulf (broadcastInDim S8x8x1024x64 ![] bcast_S_S8x8x1024x64 a)
      (Host.expm1 (select (cmpf .ogt x (broadcastInDim S8x8x1024x64 ![] bcast_S_S8x8x1024x64 (constant S_ .f32 0x00000000#32)))
        (broadcastInDim S8x8x1024x64 ![] bcast_S_S8x8x1024x64 (constant S_ .f32 0x00000000#32)) x)))

/-- The feature map as the program spells it: ELU with unit slope, plus one. -/
def feat (x : FVec F S8x8x1024x64 .f32) : FVec F S8x8x1024x64 .f32 :=
  addf (elu x (constant S_ .f32 0x3F800000#32)) (broadcastInDim S8x8x1024x64 ![] bcast_S_S8x8x1024x64 (constant S_ .f32 0x3F800000#32))

/-- The normaliser: the two feature maps contracted over the feature axis, per batch and head. -/
def denom (q k : FVec F S8x8x1024x64 .f32) : FVec F S8x8x1024x1024 .f32 :=
  Host.dotGeneral dot_S8x8x1024x64_S8x8x1024x64_S8x8x1024x1024_3_3_2_2_01_01 none (feat q) (feat k)

/-- The result: the normaliser contracted with the values over the key position, divided by the normaliser. -/
def out (q k : FVec F S8x8x1024x64 .f32) (v : FVec F S8x8x1024x1024 .f32) : FVec F S8x8x1024x1024 .f32 :=
  Host.divf (Host.dotGeneral dot_S8x8x1024x1024_S8x8x1024x1024_S8x8x1024x1024_3_2_2_3_01_01 none (denom q k) v) (denom q k)

/-- On every device, for any float values, from any memory with zero counters: every weakly fair execution of @main
    terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v8).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.HostRun

end
-- ==== Proof.RefValue.lean ====
/-
  The reference's result is the attention function of its arguments, entry by entry.

  Each batched contraction, read at (b, h, n, w), is the sum over its one contracted axis of the operands' products at
  the same batch and head; the feature map the program spells through ELU is phi at every entry; the host's quotient
  is the entrywise division.
-/
import proofs.«169671_j36060545417824_1_alg».proof.Proof.RefRun
import proofs.«169671_j36060545417824_1_alg».proof.Proof.Spec

noncomputable section

open scoped BigOperators

namespace Cert.ReferenceIdeal.HostValue

open Cert.ReferenceIdeal Cert.ReferenceIdeal.Gen Cert.ReferenceIdeal.HostRun Cert.FeatureAttention
open Idealize.ShloMosaic Idealize.ShloMosaic.ValueIdx

/-! ## The first contraction's operand indices, axis by axis

Batch and head are carried through (axes 0 and 1 of both operands read the result's axes 0 and 1); the left operand's
position axis is the result's axis 2, the right operand's the result's axis 3; the feature axis of both is contracted. -/

theorem lhs_qk_0 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 0).val = (i 0).val := by
  unfold DotDims.lhsIdx
  rw [dif_pos (show (0 : Fin S8x8x1024x64.rank) ∈ dot_S8x8x1024x64_S8x8x1024x64_S8x8x1024x1024_3_3_2_2_01_01.lhsBatch by decide)]
  rfl
theorem lhs_qk_1 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 1).val = (i 1).val := by
  unfold DotDims.lhsIdx
  rw [dif_pos (show (1 : Fin S8x8x1024x64.rank) ∈ dot_S8x8x1024x64_S8x8x1024x64_S8x8x1024x1024_3_3_2_2_01_01.lhsBatch by decide)]
  rfl
theorem lhs_qk_2 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 2).val = (i 2).val := by
  unfold DotDims.lhsIdx
  rw [dif_neg (show ¬(2 : Fin S8x8x1024x64.rank) ∈ dot_S8x8x1024x64_S8x8x1024x64_S8x8x1024x1024_3_3_2_2_01_01.lhsBatch by decide),
    dif_pos (show (2 : Fin S8x8x1024x64.rank) ∈ dot_S8x8x1024x64_S8x8x1024x64_S8x8x1024x1024_3_3_2_2_01_01.lhsNonContracting by decide)]
  rfl
theorem lhs_qk_3 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 3).val = (q ⟨0, by decide⟩).val :=
  dot_S8x8x1024x64_S8x8x1024x64_S8x8x1024x1024_3_3_2_2_01_01.lhsIdx_val_of_single rfl i q
theorem rhs_qk_0 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 0).val = (i 0).val := by
  unfold DotDims.rhsIdx
  rw [dif_pos (show (0 : Fin S8x8x1024x64.rank) ∈ dot_S8x8x1024x64_S8x8x1024x64_S8x8x1024x1024_3_3_2_2_01_01.rhsBatch by decide)]
  rfl
theorem rhs_qk_1 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 1).val = (i 1).val := by
  unfold DotDims.rhsIdx
  rw [dif_pos (show (1 : Fin S8x8x1024x64.rank) ∈ dot_S8x8x1024x64_S8x8x1024x64_S8x8x1024x1024_3_3_2_2_01_01.rhsBatch by decide)]
  rfl
theorem rhs_qk_2 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 2).val = (i 3).val := by
  unfold DotDims.rhsIdx
  rw [dif_neg (show ¬(2 : Fin S8x8x1024x64.rank) ∈ dot_S8x8x1024x64_S8x8x1024x64_S8x8x1024x1024_3_3_2_2_01_01.rhsBatch by decide),
    dif_pos (show (2 : Fin S8x8x1024x64.rank) ∈ dot_S8x8x1024x64_S8x8x1024x64_S8x8x1024x1024_3_3_2_2_01_01.rhsNonContracting by decide)]
  rfl
theorem rhs_qk_3 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 3).val = (q ⟨0, by decide⟩).val :=
  dot_S8x8x1024x64_S8x8x1024x64_S8x8x1024x1024_3_3_2_2_01_01.rhsIdx_val_of_single rfl i q

/-! ## The second contraction's operand indices, axis by axis

Batch and head carried through again; the left operand's axis 2 is the result's axis 2 and its axis 3 is contracted; the
right operand's axis 2 is contracted and its axis 3 is the result's axis 3. -/

theorem lhs_pv_0 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.lhsIdx i q 0).val = (i 0).val := by
  unfold DotDims.lhsIdx
  rw [dif_pos (show (0 : Fin S8x8x1024x1024.rank) ∈ dot_S8x8x1024x1024_S8x8x1024x1024_S8x8x1024x1024_3_2_2_3_01_01.lhsBatch by decide)]
  rfl
theorem lhs_pv_1 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.lhsIdx i q 1).val = (i 1).val := by
  unfold DotDims.lhsIdx
  rw [dif_pos (show (1 : Fin S8x8x1024x1024.rank) ∈ dot_S8x8x1024x1024_S8x8x1024x1024_S8x8x1024x1024_3_2_2_3_01_01.lhsBatch by decide)]
  rfl
theorem lhs_pv_2 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.lhsIdx i q 2).val = (i 2).val := by
  unfold DotDims.lhsIdx
  rw [dif_neg (show ¬(2 : Fin S8x8x1024x1024.rank) ∈ dot_S8x8x1024x1024_S8x8x1024x1024_S8x8x1024x1024_3_2_2_3_01_01.lhsBatch by decide),
    dif_pos (show (2 : Fin S8x8x1024x1024.rank) ∈ dot_S8x8x1024x1024_S8x8x1024x1024_S8x8x1024x1024_3_2_2_3_01_01.lhsNonContracting by decide)]
  rfl
theorem lhs_pv_3 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.lhsIdx i q 3).val = (q ⟨0, by decide⟩).val :=
  dot_S8x8x1024x1024_S8x8x1024x1024_S8x8x1024x1024_3_2_2_3_01_01.lhsIdx_val_of_single rfl i q
theorem rhs_pv_0 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.rhsIdx i q 0).val = (i 0).val := by
  unfold DotDims.rhsIdx
  rw [dif_pos (show (0 : Fin S8x8x1024x1024.rank) ∈ dot_S8x8x1024x1024_S8x8x1024x1024_S8x8x1024x1024_3_2_2_3_01_01.rhsBatch by decide)]
  rfl
theorem rhs_pv_1 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.rhsIdx i q 1).val = (i 1).val := by
  unfold DotDims.rhsIdx
  rw [dif_pos (show (1 : Fin S8x8x1024x1024.rank) ∈ dot_S8x8x1024x1024_S8x8x1024x1024_S8x8x1024x1024_3_2_2_3_01_01.rhsBatch by decide)]
  rfl
theorem rhs_pv_2 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.rhsIdx i q 2).val = (q ⟨0, by decide⟩).val :=
  dot_S8x8x1024x1024_S8x8x1024x1024_S8x8x1024x1024_3_2_2_3_01_01.rhsIdx_val_of_single rfl i q
theorem rhs_pv_3 (i : S8x8x1024x1024.Idx) (q : dot_S8x8x1024x1024_S8x8x1024x1024_S8x8x1024x1024_3_2_2_3_01_01.contr.Idx) :
    (dot_S8x8x1024x1024_S8x8x1024x1024_S8x8x1024x1024_3_2_2_3_01_01.rhsIdx i q 3).val = (i 3).val := by
  unfold DotDims.rhsIdx
  rw [dif_neg (show ¬(3 : Fin S8x8x1024x1024.rank) ∈ dot_S8x8x1024x1024_S8x8x1024x1024_S8x8x1024x1024_3_2_2_3_01_01.rhsBatch by decide),
    dif_pos (show (3 : Fin S8x8x1024x1024.rank) ∈ dot_S8x8x1024x1024_S8x8x1024x1024_S8x8x1024x1024_3_2_2_3_01_01.rhsNonContracting by decide)]
  rfl

/-! ## The two contractions at an entry -/

/-- Entry (b, h, n, w) of the first contraction: row n against row w of the same batch and head, over the features. -/
theorem dot_qk (A B : FVec Ideal S8x8x1024x64 .f32) (b h : Fin 8) (n w : Fin 1024) :
    Host.dotGeneral dot_S8x8x1024x64_S8x8x1024x64_S8x8x1024x1024_3_3_2_2_01_01 none A B (ix4 b h n w)
      = ∑ d : Fin 64, A (ix4 b h n d) * B (ix4 b h w d) := by
  simp only [Host.dotGeneral]
  rw [Ideal.dotGeneral_apply,
    ← Equiv.sum_comp (contrEquiv1 dot_S8x8x1024x64_S8x8x1024x64_S8x8x1024x1024_3_3_2_2_01_01 64 rfl rfl).symm]
  refine Finset.sum_congr rfl fun k _ => ?_
  have hk := contrEquiv1_symm_val dot_S8x8x1024x64_S8x8x1024x64_S8x8x1024x1024_3_3_2_2_01_01 64 rfl rfl k
  have el : dot_S8x8x1024x64_S8x8x1024x64_S8x8x1024x1024_3_3_2_2_01_01.lhsIdx (ix4 b h n w)
      ((contrEquiv1 dot_S8x8x1024x64_S8x8x1024x64_S8x8x1024x1024_3_3_2_2_01_01 64 rfl rfl).symm k) = ix4 b h n k :=
    funext fun a => Fin.ext (by
      match a with
      | ⟨0, _⟩ => exact lhs_qk_0 _ _
      | ⟨1, _⟩ => exact lhs_qk_1 _ _
      | ⟨2, _⟩ => exact lhs_qk_2 _ _
      | ⟨3, _⟩ => exact (lhs_qk_3 _ _).trans hk)
  have er : dot_S8x8x1024x64_S8x8x1024x64_S8x8x1024x1024_3_3_2_2_01_01.rhsIdx (ix4 b h n w)
      ((contrEquiv1 dot_S8x8x1024x64_S8x8x1024x64_S8x8x1024x1024_3_3_2_2_01_01 64 rfl rfl).symm k) = ix4 b h w k :=
    funext fun a => Fin.ext (by
      match a with
      | ⟨0, _⟩ => exact rhs_qk_0 _ _
      | ⟨1, _⟩ => exact rhs_qk_1 _ _
      | ⟨2, _⟩ => exact rhs_qk_2 _ _
      | ⟨3, _⟩ => exact (rhs_qk_3 _ _).trans hk)
  rw [el, er]

/-- Entry (b, h, n, w) of the second contraction: row n of the left operand against column w of the right, over the
    key position. -/
theorem dot_pv (A B : FVec Ideal S8x8x1024x1024 .f32) (b h : Fin 8) (n w : Fin 1024) :
    Host.dotGeneral dot_S8x8x1024x1024_S8x8x1024x1024_S8x8x1024x1024_3_2_2_3_01_01 none A B (ix4 b h n w)
      = ∑ k : Fin 1024, A (ix4 b h n k) * B (ix4 b h k w) := by
  simp only [Host.dotGeneral]
  rw [Ideal.dotGeneral_apply,
    ← Equiv.sum_comp (contrEquiv1 dot_S8x8x1024x1024_S8x8x1024x1024_S8x8x1024x1024_3_2_2_3_01_01 1024 rfl rfl).symm]
  refine Finset.sum_congr rfl fun k _ => ?_
  have hk := contrEquiv1_symm_val dot_S8x8x1024x1024_S8x8x1024x1024_S8x8x1024x1024_3_2_2_3_01_01 1024 rfl rfl k
  have el : dot_S8x8x1024x1024_S8x8x1024x1024_S8x8x1024x1024_3_2_2_3_01_01.lhsIdx (ix4 b h n w)
      ((contrEquiv1 dot_S8x8x1024x1024_S8x8x1024x1024_S8x8x1024x1024_3_2_2_3_01_01 1024 rfl rfl).symm k) = ix4 b h n k :=
    funext fun a => Fin.ext (by
      match a with
      | ⟨0, _⟩ => exact lhs_pv_0 _ _
      | ⟨1, _⟩ => exact lhs_pv_1 _ _
      | ⟨2, _⟩ => exact lhs_pv_2 _ _
      | ⟨3, _⟩ => exact (lhs_pv_3 _ _).trans hk)
  have er : dot_S8x8x1024x1024_S8x8x1024x1024_S8x8x1024x1024_3_2_2_3_01_01.rhsIdx (ix4 b h n w)
      ((contrEquiv1 dot_S8x8x1024x1024_S8x8x1024x1024_S8x8x1024x1024_3_2_2_3_01_01 1024 rfl rfl).symm k) = ix4 b h k w :=
    funext fun a => Fin.ext (by
      match a with
      | ⟨0, _⟩ => exact rhs_pv_0 _ _
      | ⟨1, _⟩ => exact rhs_pv_1 _ _
      | ⟨2, _⟩ => exact (rhs_pv_2 _ _).trans hk
      | ⟨3, _⟩ => exact rhs_pv_3 _ _)
  rw [el, er]

/-! ## The feature map -/

/-- ELU with unit slope plus one, as the program spells it, is phi at every entry. -/
theorem feat_apply (x : FVec Ideal S8x8x1024x64 .f32) (i : S8x8x1024x64.Idx) : feat (F := Ideal) x i = phi (x i) :=
  phi_of_elu (x i)

/-! ## The result -/

/-- The normaliser at (b, h, n, w). -/
theorem denom_apply (q k : FVec Ideal S8x8x1024x64 .f32) (b h : Fin 8) (n w : Fin 1024) :
    denom (F := Ideal) q k (ix4 b h n w) = den4 q k b h n w := by
  unfold denom den4
  rw [dot_qk]
  simp only [feat_apply]

/-- The program's result is the attention function of its three arguments. -/
theorem out_eq (q k : FVec Ideal S8x8x1024x64 .f32) (v : FVec Ideal S8x8x1024x1024 .f32) :
    out (F := Ideal) q k v = attn4 q k v := by
  funext i
  obtain ⟨b, h, n, w, rfl⟩ : ∃ (b h : Fin 8) (n w : Fin 1024), i = ix4 b h n w := ⟨i 0, i 1, i 2, i 3, eq_ix4 i⟩
  rw [attn4_ix]
  unfold out
  rw [hostDivf_apply, dot_pv, denom_apply]
  unfold num4
  simp only [denom_apply]

end Cert.ReferenceIdeal.HostValue

end
-- ==== Proof.KernelBody.lean ====
/-
  The kernel body's one stored value, read at an index.

  At a grid point the body loads a block of 256 query rows, all 1024 key rows and all 1024 value rows of one merged
  batch-and-head, applies the feature map to queries and keys, multiplies the two (contracting the 64 features; the
  key block enters transposed), multiplies the product with the values (contracting the 1024 key positions) and
  divides the second product by the first, entry by entry.  The changes of float format in between are the identity
  on the extended reals, and each matrix product into a zero accumulator is the plain sum of products.
-/
import proofs.«169671_j36060545417824_1_alg».proof.Proof.Gen.KernelIdeal.Skeleton
import proofs.«169671_j36060545417824_1_alg».proof.Proof.Spec
import Idealize.ShloMosaic.Lib.ValueLayout

noncomputable section

open scoped BigOperators

namespace Cert.KernelIdeal.Body

open Cert.KernelIdeal Cert.KernelIdeal.Gen Cert.FeatureAttention Idealize.ShloMosaic Idealize.ShloMosaic.ValueIdx

/-! ## The two matrix products' operand indices, axis by axis -/

/-- Queries times keys, both contracted on their feature axis. -/
abbrev dQK := dot_S256x64_S1024x64_S256x1024_1_1_0_0_n_n
/-- The product times the values, contracted on the key position. -/
abbrev dPV := dot_S256x1024_S1024x1024_S256x1024_1_0_0_1_n_n

theorem lhs_qk_0 (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide),
    dif_pos (show (0 : Fin S256x64.rank) ∈ dot_S256x64_S1024x64_S256x1024_1_1_0_0_n_n.lhsNonContracting by decide)]
  rfl
theorem lhs_qk_1 (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem rhs_qk_0 (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide),
    dif_pos (show (0 : Fin S1024x64.rank) ∈ dot_S256x64_S1024x64_S256x1024_1_1_0_0_n_n.rhsNonContracting by decide)]
  rfl
theorem rhs_qk_1 (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

theorem lhs_pv_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem lhs_pv_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_pv_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_pv_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-! ## The two products at an entry -/

/-- Entry (p, q) of the first product: query row p against key row q, summed over the features. -/
theorem matmul_qk (A : FVec Ideal S256x64 .bf16) (B : FVec Ideal S1024x64 .bf16) (p : Fin 256) (q : Fin 1024) :
    matmul dot_S256x64_S1024x64_S256x1024_1_1_0_0_n_n none A B (constant S256x1024 .f32 0x00000000#32) (ix2 p q)
      = ∑ d : Fin 64, A (ix2 p d) * B (ix2 q d) := by
  simp only [matmul]
  rw [Ideal.matmul_constant_zero_apply,
    ← Equiv.sum_comp (contrEquiv1 dot_S256x64_S1024x64_S256x1024_1_1_0_0_n_n 64 rfl rfl).symm]
  refine Finset.sum_congr rfl fun k _ => ?_
  have hk := contrEquiv1_symm_val dot_S256x64_S1024x64_S256x1024_1_1_0_0_n_n 64 rfl rfl k
  have el : dot_S256x64_S1024x64_S256x1024_1_1_0_0_n_n.lhsIdx (ix2 p q)
      ((contrEquiv1 dot_S256x64_S1024x64_S256x1024_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S256x64_S1024x64_S256x1024_1_1_0_0_n_n.rhsIdx (ix2 p q)
      ((contrEquiv1 dot_S256x64_S1024x64_S256x1024_1_1_0_0_n_n 64 rfl rfl).symm k) = ix2 q k := funext fun a => Fin.ext (by
    match a with
    | ⟨0, _⟩ => exact rhs_qk_0 _ _
    | ⟨1, _⟩ => exact (rhs_qk_1 _ _).trans hk)
  rw [el, er]

/-- Entry (p, v) of the second product: row p of the first product against column v of the values. -/
theorem matmul_pv (A : FVec Ideal S256x1024 .bf16) (B : FVec Ideal S1024x1024 .bf16) (p : Fin 256) (v : Fin 1024) :
    matmul dot_S256x1024_S1024x1024_S256x1024_1_0_0_1_n_n none A B (constant S256x1024 .f32 0x00000000#32) (ix2 p v)
      = ∑ k : Fin 1024, A (ix2 p k) * B (ix2 k v) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p v)
      ((contrEquiv1 dot_S256x1024_S1024x1024_S256x1024_1_0_0_1_n_n 1024 rfl rfl).symm k) = ix2 p k := funext fun a => Fin.ext (by
    match a with
    | ⟨0, _⟩ => exact lhs_pv_0 _ _
    | ⟨1, _⟩ => exact (lhs_pv_1 _ _).trans hk)
  have er : dot_S256x1024_S1024x1024_S256x1024_1_0_0_1_n_n.rhsIdx (ix2 p v)
      ((contrEquiv1 dot_S256x1024_S1024x1024_S256x1024_1_0_0_1_n_n 1024 rfl rfl).symm k) = ix2 k v := funext fun a => Fin.ext (by
    match a with
    | ⟨0, _⟩ => exact (rhs_pv_0 _ _).trans hk
    | ⟨1, _⟩ => exact rhs_pv_1 _ _)
  rw [el, er]

/-! ## The feature map on a block -/

/-- The body's selection between x + 1 and e^x by x > 0 is phi at each entry (the narrowing to bf16 that follows it is
    the identity on the extended reals). -/
theorem feat_apply {S : Shape} (w : FVec Ideal S .f32) (i : S.Idx) :
    select (cmpf .ogt w (broadcast S (Scalar.ofBits .f32 0x00000000#32)))
        (addf w (broadcast S (Scalar.ofBits .f32 0x3F800000#32))) (exp w) i = phi (w i) :=
  phi_of_select (w i)

/-! ## The stored value at an entry -/

/-- Entry (p, v) of the stored block: the sum over key positions of the normaliser's entry (p, k) times the value
    (k, v), divided by the normaliser's entry (p, v); the normaliser's entry (p, k) is the sum over features of phi of
    the query entry times phi of the key entry. -/
theorem pay_apply (x0 : Vec Ideal S1x256x64 .f32) (x1 : Vec Ideal S1x1024x64 .f32) (x2 : Vec Ideal S1x1024x1024 .f32)
    (u : Fin 1) (p : Fin 256) (v : Fin 1024) :
    k0_pay1 (F := Ideal) x0 x1 x2 (ix3 u p v)
      = Ideal.div
          (∑ k : Fin 1024, (∑ d : Fin 64, phi (x0 (ix3 (0 : Fin 1) p d)) * phi (x1 (ix3 (0 : Fin 1) k d))) * x2 (ix3 (0 : Fin 1) k v))
          (∑ d : Fin 64, phi (x0 (ix3 (0 : Fin 1) p d)) * phi (x1 (ix3 (0 : Fin 1) v d))) := by
  unfold k0_pay1
  rw [shapeCast_ab_1ab_apply, divf_apply, matmul_pv, matmul_qk]
  simp only [truncf_apply, matmul_qk, feat_apply, shapeCast_1ab_ab_apply]

end Cert.KernelIdeal.Body

end
-- ==== Proof.KernelValue.lean ====
/-
  The kernel's program, read: what its result buffer holds after every run.

  The program merges batch and head of the three arguments by row-major reshapes, runs the body on a grid of 64 merged
  batch-heads by 4 row tiles, and splits the merged axis of the result again.  At the point of merged index g and row
  tile r the body sees rows 256 r .. 256 r + 255 of the queries of g and all the keys and values of g, and writes rows
  256 r .. 256 r + 255 of the result of g.  So every point writes the block, at its place, of ONE function of the three
  merged arrays (the attention function over merged batch and head), the 256 blocks tile the result, and the result
  array ends as that function; the reshapes before and after turn it into the attention function of the arguments.
-/
import proofs.«169671_j36060545417824_1_alg».proof.Proof.Gen.KernelIdeal.Frame
import proofs.«169671_j36060545417824_1_alg».proof.Proof.KernelBody
import proofs.«169671_j36060545417824_1_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Region

open Cert.KernelIdeal Cert.KernelIdeal.Gen Cert.KernelIdeal.Body Cert.FeatureAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The arrays the region finds, and the blocks a point sees -/

/-- The queries, keys and values with batch and head merged, as the region finds them. -/
abbrev q3 (c : Dev nD) : S64x1024x64.Idx → EReal := V m c main_v0
abbrev k3 (c : Dev nD) : S64x1024x64.Idx → EReal := V m c main_v1
abbrev v3 (c : Dev nD) : S64x1024x1024.Idx → EReal := V m c main_v2

/-- The three input blocks at a point. -/
abbrev qblk (c : Dev nD) (t : Fin cfg0.N) : Vec Ideal S1x256x64 .f32 := iblk m c 0 t
abbrev kblk (c : Dev nD) (t : Fin cfg0.N) : Vec Ideal S1x1024x64 .f32 := iblk m c 1 t
abbrev vblk (c : Dev nD) (t : Fin cfg0.N) : Vec Ideal S1x1024x1024 .f32 := iblk m c 2 t

/-- The printed index maps over the grid: point t is merged index t / 4 and row tile t % 4; queries and result move
    with both, keys and values with the merged index alone. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-- Row p of the query block at point t is row 256 (t % 4) + p of merged index t / 4. -/
theorem qblk_apply (c : Dev nD) (t : Fin cfg0.N) (u : Fin 1) (p : Fin 256) (d : Fin 64) (g : Fin 64) (n : Fin 1024)
    (hg : g.val = t.val / 4) (hn : n.val = t.val % 4 * 256 + p.val) :
    qblk m c t (ix3 u p d) = q3 m c (ix3 g n d) := by
  obtain ⟨e0, e1, e2, -⟩ := idx_facts t
  show V m c main_v0 (((cfg0.win 0).blk t).view.emb (ix3 u p d)) = V m c main_v0 (ix3 g n d)
  refine congrArg (V m c main_v0) ?_
  funext a
  apply Fin.ext
  have hu : u.val < 1 := u.isLt
  match a with
  | ⟨0, _⟩ => show win0_0.index t (0 : Fin 3) * 1 + 1 * u.val = g.val; omega
  | ⟨1, _⟩ => show win0_0.index t (1 : Fin 3) * 256 + 1 * p.val = n.val; omega
  | ⟨2, _⟩ => show win0_0.index t (2 : Fin 3) * 64 + 1 * d.val = d.val; omega

/-- Row k of the key block at point t is row k of merged index t / 4. -/
theorem kblk_apply (c : Dev nD) (t : Fin cfg0.N) (u : Fin 1) (k : Fin 1024) (d : Fin 64) (g : Fin 64)
    (hg : g.val = t.val / 4) :
    kblk m c t (ix3 u k d) = k3 m c (ix3 g k d) := by
  obtain ⟨-, -, -, e0, e1, e2, -⟩ := idx_facts t
  show V m c main_v1 (((cfg0.win 1).blk t).view.emb (ix3 u k d)) = V m c main_v1 (ix3 g k d)
  refine congrArg (V m c main_v1) ?_
  funext a
  apply Fin.ext
  have hu : u.val < 1 := u.isLt
  match a with
  | ⟨0, _⟩ => show win0_1.index t (0 : Fin 3) * 1 + 1 * u.val = g.val; omega
  | ⟨1, _⟩ => show win0_1.index t (1 : Fin 3) * 1024 + 1 * k.val = k.val; omega
  | ⟨2, _⟩ => show win0_1.index t (2 : Fin 3) * 64 + 1 * d.val = d.val; omega

/-- Row k of the value block at point t is row k of merged index t / 4. -/
theorem vblk_apply (c : Dev nD) (t : Fin cfg0.N) (u : Fin 1) (k v : Fin 1024) (g : Fin 64)
    (hg : g.val = t.val / 4) :
    vblk m c t (ix3 u k v) = v3 m c (ix3 g k v) := by
  obtain ⟨-, -, -, -, -, -, e0, e1, e2, -⟩ := idx_facts t
  show V m c main_v2 (((cfg0.win 2).blk t).view.emb (ix3 u k v)) = V m c main_v2 (ix3 g k v)
  refine congrArg (V m c main_v2) ?_
  funext a
  apply Fin.ext
  have hu : u.val < 1 := u.isLt
  match a with
  | ⟨0, _⟩ => show win0_2.index t (0 : Fin 3) * 1 + 1 * u.val = g.val; omega
  | ⟨1, _⟩ => show win0_2.index t (1 : Fin 3) * 1024 + 1 * k.val = k.val; omega
  | ⟨2, _⟩ => show win0_2.index t (2 : Fin 3) * 1024 + 1 * v.val = v.val; omega

/-! ## What a point writes back -/

/-- Point t writes back block t of the attention function of the merged arrays. -/
theorem flushed_eq (c : Dev nD) (t : Fin cfg0.N) :
    (dats m 0 c).flushed 3 t = ((cfg0.win 3).blk t).view.read (Elt Ideal) (attn3 (q3 m c) (k3 m c) (v3 m c)) := by
  show (cfg0.win 3).cut (grid0.coords t) ((dats m 0 c).after 3 t) = _
  rw [after0_3]
  unfold out0_3
  rw [View.canon_unit_zero hz]
  simp only [View.ld_unit_zero (S := S1x256x64) hz, View.ld_unit_zero (S := S1x1024x64) hz, View.ld_unit_zero (S := S1x1024x1024) hz]
  funext j
  obtain ⟨u, p, v, rfl⟩ : ∃ (u : Fin 1) (p : Fin 256) (v : Fin 1024), j = ix3 u p v := ⟨j 0, j 1, j 2, eq_ix3 j⟩
  have hN : cfg0.N = 256 := N_0
  have ht : t.val < 256 := hN ▸ t.isLt
  have hp : p.val < 256 := p.isLt
  have hu : u.val < 1 := u.isLt
  obtain ⟨-, -, -, -, -, -, -, -, -, e0, e1, e2⟩ := idx_facts t
  let g : Fin 64 := ⟨t.val / 4, by omega⟩
  let n : Fin 1024 := ⟨t.val % 4 * 256 + p.val, by omega⟩
  have hg : g.val = t.val / 4 := rfl
  have hn : n.val = t.val % 4 * 256 + p.val := rfl
  have hemb : ((cfg0.win 3).blk t).view.emb (ix3 u p v) = ix3 g n v := by
    funext a
    apply Fin.ext
    match a with
    | ⟨0, _⟩ => show win0_3.index t (0 : Fin 3) * 1 + 1 * u.val = g.val; omega
    | ⟨1, _⟩ => show win0_3.index t (1 : Fin 3) * 256 + 1 * p.val = n.val; omega
    | ⟨2, _⟩ => show win0_3.index t (2 : Fin 3) * 1024 + 1 * v.val = v.val; omega
  show k0_pay1 (qblk m c t) (kblk m c t) (vblk m c t) (ix3 u p v)
    = attn3 (q3 m c) (k3 m c) (v3 m c) (((cfg0.win 3).blk t).view.emb (ix3 u p v))
  rw [hemb, attn3_ix]
  refine (pay_apply (qblk m c t) (kblk m c t) (vblk m c t) u p v).trans ?_
  unfold num3 den3
  simp only [qblk_apply m c t (0 : Fin 1) p _ g n hg hn, kblk_apply m c t (0 : Fin 1) _ _ g hg, vblk_apply m c t (0 : Fin 1) _ _ g hg]

/-! ## The blocks tile the result -/

/-- An index of the result is in point t's block iff each coordinate is in the block's range on its axis. -/
theorem mem_blk (t : Fin cfg0.N) (i : S64x1024x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v3).slice (win0_3.rect t)).set ↔ _
  rw [View.set_slice_whole, Rect.mem_set_unit]
  exact Iff.rfl

/-- Every index of the result is in the block of the point of its merged index and row tile. -/
theorem cover (i : S64x1024x1024.Idx) :
    ∃ t : Fin cfg0.N, (cfg0.win 3).flush t = true ∧ i ∈ ((cfg0.win 3).blk t).view.set := by
  have h0 : (i 0).val < 64 := (i 0).isLt
  have h1 : (i 1).val < 1024 := (i 1).isLt
  have h2 : (i 2).val < 1024 := (i 2).isLt
  have hN : cfg0.N = 256 := N_0
  let t : Fin cfg0.N := ⟨(i 0).val * 4 + (i 1).val / 256, by rw [hN]; omega⟩
  have ht : t.val = (i 0).val * 4 + (i 1).val / 256 := rfl
  obtain ⟨-, -, -, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- So the result array of the region ends as the attention function of the merged arrays. -/
theorem final (c : Dev nD) : (dats m 0 c).arrAt 3 cfg0.N = attn3 (q3 m c) (k3 m c) (v3 m c) :=
  (dats m 0 c).arrAt_eq_of_cover 3 (attn3 (q3 m c) (k3 m c) (v3 m c)) (fun t _ => flushed_eq m c t) cover

/-! ## The reshapes before and after the region -/

theorem q3_eq (c : Dev nD) :
    q3 m c = shapeCast S64x1024x64 (m ((c : Thread nD τ).loc main_arg0)) shapeCasts_S8x8x1024x64_S64x1024x64 := by
  show StableHlo.after hostOps0 (fun b => m (c, b)) (Proc.devRef .tc main_v0) = _
  after_results
  rfl
theorem k3_eq (c : Dev nD) :
    k3 m c = shapeCast S64x1024x64 (m ((c : Thread nD τ).loc main_arg1)) shapeCasts_S8x8x1024x64_S64x1024x64 := by
  show StableHlo.after hostOps0 (fun b => m (c, b)) (Proc.devRef .tc main_v1) = _
  after_results
  rfl
theorem v3_eq (c : Dev nD) :
    v3 m c = shapeCast S64x1024x1024 (m ((c : Thread nD τ).loc main_arg2)) shapeCasts_S8x8x1024x1024_S64x1024x1024 := by
  show StableHlo.after hostOps0 (fun b => m (c, b)) (Proc.devRef .tc main_v2) = _
  after_results
  rfl

/-- The program's result buffer after the line that follows the region: the region's result with the merged axis split. -/
theorem tail_eq (c : Dev nD) :
    (Pipeline.afterTail₀ cfgs (dats m) 0 (V0 m) [hostOps1] c main_v4 : S8x8x1024x1024.Idx → EReal)
      = shapeCast S8x8x1024x1024 ((dats m 0 c).arrAt 3 cfg0.N) shapeCasts_S64x1024x1024_S8x8x1024x1024 := by
  unfold Pipeline.afterTail₀
  show StableHlo.after hostOps1 _ (Proc.devRef .tc main_v4) = _
  after_results
  rw [Pipeline.withArrays_arr spec0 launch0.win.arr_inj c _ _ 3]
  rfl

/-- Which is the attention function of the three arguments. -/
theorem result_eq (c : Dev nD) :
    (Pipeline.afterTail₀ cfgs (dats m) 0 (V0 m) [hostOps1] c main_v4 : S8x8x1024x1024.Idx → EReal)
      = attn4 (m ((c : Thread nD τ).loc main_arg0)) (m ((c : Thread nD τ).loc main_arg1)) (m ((c : Thread nD τ).loc main_arg2)) := by
  rw [tail_eq, final, q3_eq, k3_eq, v3_eq]
  exact attn_reshape _ _ _ _ _ _

/-! ## The run, read -/

/-- On every device, from any memory with zero counters: every weakly fair execution of the program terminates with
    the result buffer at the attention function of the arguments and the arguments unchanged. -/
theorem run : θ_run defs (onTc (τ := τ) (main (F := Ideal))) ⟨m, fun _ => 0, ρ⟩ fun r => ∀ c : Dev nD,
      r.2.mem ((c.tc : Thread nD τ).loc main_v4)
          = attn4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Region

end
-- ==== Proof.lean ====
/-
  The certificate of linear attention with the feature map phi = ELU + 1: a Pallas kernel against its jnp reference.

  Both programs compute, for each batch b, head h, query position n and column v,

      out[b,h,n,v] = (sum over m of den[b,h,n,m] * V[b,h,m,v]) / den[b,h,n,v],
      den[b,h,n,m] = sum over d of phi(Q[b,h,n,d]) * phi(K[b,h,m,d]),

  on the extended reals (Proof/Spec.lean).  The kernel merges batch and head, tiles the query rows by 256, spells phi as
  a choice between x + 1 and e^x, narrows the operands of its two matrix products to bf16 (the identity on the extended
  reals) and accumulates into zero; the reference spells phi through ELU's definition with expm1, keeps batch and head
  apart and contracts with two batched products.  The two spellings of phi are one function at every extended real
  ((e^x - 1) + 1 = e^x wherever x is not above zero, since e^x is then a real number), every product is the plain sum of
  products, and the row-major reshapes around the kernel's region only rename indices: so both result buffers end at the
  same function of the arguments, with no appeal to the finiteness of the inputs.

  The three frames: the kernel's two are its generated frame certificates; the reference's is its run (Proof/RefRun.lean)
  with the result forgotten.  The idealization rewrote nothing, so its preservation claim is trivial.
-/
import proofs.«169671_j36060545417824_1_alg».proof.Defs
import proofs.«169671_j36060545417824_1_alg».proof.Proof.Gen.Kernel
import proofs.«169671_j36060545417824_1_alg».proof.Proof.Gen.Kernel.Skeleton
import proofs.«169671_j36060545417824_1_alg».proof.Proof.Gen.Kernel.Launch
import proofs.«169671_j36060545417824_1_alg».proof.Proof.Gen.Kernel.Points
import proofs.«169671_j36060545417824_1_alg».proof.Proof.Gen.Kernel.Frame
import proofs.«169671_j36060545417824_1_alg».proof.Proof.Gen.KernelIdeal
import proofs.«169671_j36060545417824_1_alg».proof.Proof.Gen.KernelIdeal.Skeleton
import proofs.«169671_j36060545417824_1_alg».proof.Proof.Gen.KernelIdeal.Launch
import proofs.«169671_j36060545417824_1_alg».proof.Proof.Gen.KernelIdeal.Points
import proofs.«169671_j36060545417824_1_alg».proof.Proof.Gen.KernelIdeal.Frame
import proofs.«169671_j36060545417824_1_alg».proof.Proof.Gen.ReferenceIdeal
import proofs.«169671_j36060545417824_1_alg».proof.Proof.Gen.Pre_finite_inputs
import proofs.«169671_j36060545417824_1_alg».proof.Proof.Spec
import proofs.«169671_j36060545417824_1_alg».proof.Proof.RefRun
import proofs.«169671_j36060545417824_1_alg».proof.Proof.RefValue
import proofs.«169671_j36060545417824_1_alg».proof.Proof.KernelBody
import proofs.«169671_j36060545417824_1_alg».proof.Proof.KernelValue
import Idealize.ShloMosaic.Adequacy
import Idealize.ShloMosaic.Init

noncomputable section

namespace Cert.Proof

open Idealize.ShloMosaic Idealize.SL.Sem Cert.FeatureAttention

/-- The kernel as printed runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.HostRun.run (F := Ideal) m ρ)

/-- From memories that agree on the arguments both programs end with the attention function of the arguments in
    their result buffers. -/
theorem algebraic : Cert.algebraic_KernelIdeal_ReferenceIdeal := by
  intro m ρ m' ρ' _ hagree
  refine ⟨fun c => attn4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Region.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.HostValue.out_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
